-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32x1024x1024 : Shape := ⟨3, ![32, 1024, 1024]⟩
abbrev S64x128 : Shape := ⟨2, ![64, 128]⟩
abbrev S128 : Shape := ⟨1, ![128]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x1024x64 .f32) (main_arg1 : FVec F S32x1024x1024 .f32) (main_arg2 : FVec F S64x128 .f32) (main_arg3 : FVec F S128 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x1024x64 : Shape := ⟨3, ![32, 1024, 64]⟩
abbrev S32x1024x1024 : Shape := ⟨3, ![32, 1024, 1024]⟩
abbrev S64x128 : Shape := ⟨2, ![64, 128]⟩
abbrev S128 : Shape := ⟨1, ![128]⟩
abbrev S32x1024x128 : Shape := ⟨3, ![32, 1024, 128]⟩
abbrev S1x1024x1024 : Shape := ⟨3, ![1, 1024, 1024]⟩
abbrev S1x1024x64 : Shape := ⟨3, ![1, 1024, 64]⟩
abbrev S1x1024x128 : Shape := ⟨3, ![1, 1024, 128]⟩
abbrev S1024x1024 : Shape := ⟨2, ![1024, 1024]⟩
abbrev S1024x64 : Shape := ⟨2, ![1024, 64]⟩
abbrev S1024x128 : Shape := ⟨2, ![1024, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x128, .f32⟩
  | .hbm, ⟨3, _⟩ => ⟨S128, .f32⟩
  | .hbm, ⟨4, _⟩ => ⟨S32x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S64x128, .f32⟩
  | .local _ .vmem, ⟨5, _⟩ => ⟨S128, .f32⟩
  | .local _ .vmem, ⟨6, _⟩ => ⟨S1x1024x128, .f32⟩
  | .local _ .vmem, ⟨7, _⟩ => ⟨S1x1024x128, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x1024_S1024x64_S1024x64_1_0_0_1_n_n_wf : DotDims.WF S1024x1024 S1024x64 S1024x64 [1] [0] [0] [1] [] []
  dot_S1024x64_S64x128_S1024x128_1_0_0_1_n_n_wf : DotDims.WF S1024x64 S64x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x1024x64.size a
  hwx0_1 : ∀ i : grid0.Coords, EltTy.bits .f32 = 32 ∨ (Rect.block (s := S32x1024x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S32x1024x128.size a
  hwx0_4 : ∀ i : grid0.Coords, EltTy.bits .f32 = 32 ∨ (Rect.block (s := S32x1024x128) S1x1024x128.size (cc0_transform_4 i) (hinb0_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x64 : Shape := ⟨3, ![32, 1024, 64]⟩
abbrev S32x1024x1024 : Shape := ⟨3, ![32, 1024, 1024]⟩
abbrev S64x128 : Shape := ⟨2, ![64, 128]⟩
abbrev S128 : Shape := ⟨1, ![128]⟩
abbrev S32x1024x128 : Shape := ⟨3, ![32, 1024, 128]⟩
abbrev S1x1x128 : Shape := ⟨3, ![1, 1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x128, .f32⟩
  | .hbm, ⟨3, _⟩ => ⟨S128, .f32⟩
  | .hbm, ⟨4, _⟩ => ⟨S32x1024x64, .f32⟩
  | .hbm, ⟨5, _⟩ => ⟨S32x1024x128, .f32⟩
  | .hbm, ⟨6, _⟩ => ⟨S1x1x128, .f32⟩
  | .hbm, ⟨7, _⟩ => ⟨S32x1024x128, .f32⟩
  | .hbm, ⟨8, _⟩ => ⟨S32x1024x128, .f32⟩
  | .hbm, ⟨9, _⟩ => ⟨S_, .f32⟩
  | .hbm, ⟨10, _⟩ => ⟨S32x1024x128, .f32⟩
  | .hbm, ⟨11, _⟩ => ⟨S32x1024x128, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  dot_S32x1024x1024_S32x1024x64_S32x1024x64_2_1_1_2_0_0_wf : DotDims.WF S32x1024x1024 S32x1024x64 S32x1024x64 [2] [1] [1] [2] [0] [0]
  dot_S32x1024x64_S64x128_S32x1024x128_2_0_01_1_n_n_wf : DotDims.WF S32x1024x64 S64x128 S32x1024x128 [2] [0] [0, 1] [1] [] []

variable [Facts₀]

def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf
def dot_S32x1024x64_S64x128_S32x1024x128_2_0_01_1_n_n : DotDims S32x1024x64 S64x128 S32x1024x128 where
  lhsContracting := [2]
  rhsContracting := [0]
  lhsNonContracting := [0, 1]
  rhsNonContracting := [1]
  lhsBatch := []
  rhsBatch := []
  wf := dot_S32x1024x64_S64x128_S32x1024x128_2_0_01_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelBlock.lean ====
/-
  What the kernel's body computes for one graph, read at an index, at the ideal values.

  The body loads one graph's adjacency block `[1, 1024, 1024]`, its feature block `[1, 1024, 64]`, the projection
  `[64, 128]` and the bias `[128]`; it drops the unit axis, multiplies adjacency by features into a zero accumulator,
  multiplies the aggregate by the projection into a zero accumulator, adds the bias row to every node's row, takes the
  maximum with zero and puts the unit axis back. Changes of float format are the identity at the ideal values, and a
  product into the zero accumulator is the plain sum over the contracted axis. So at `(u, n, o)` the stored value is

    max ( (∑ f, (∑ k, adj (0, n, k) · x (0, k, f)) · w (f, o)) + bias o , 0 ).
-/
import proofs.«147020_j64226940944904_1_alg».proof.Proof.Gen.KernelIdeal.Skeleton
import proofs.«147020_j64226940944904_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelBlock

open Cert.KernelIdeal Cert.KernelIdeal.Gen

/-! ## The aggregation product's operand indices: rows of the left operand, columns of the right, one contracted axis -/

theorem aggregate_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem aggregate_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem aggregate_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem aggregate_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Adjacency times features into zero, at `(n, f)`: the sum over the 1024 neighbours. -/
theorem aggregate_apply (A : FVec Ideal S1024x1024 .bf16) (B : FVec Ideal S1024x64 .bf16) (n : Fin 1024) (f : Fin 64) :
    matmul dot_S1024x1024_S1024x64_S1024x64_1_0_0_1_n_n none A B (constant S1024x64 .f32 0x00000000#32) (ix2 n f) = ∑ k : Fin 1024, A (ix2 n k) * B (ix2 k f) :=
  Cert.LibPlainMatmul.matmul_zero_apply dot_S1024x1024_S1024x64_S1024x64_1_0_0_1_n_n none rfl rfl aggregate_lhs_0 aggregate_lhs_1 aggregate_rhs_0 aggregate_rhs_1 A B n f

/-! ## The projection product's operand indices -/

theorem project_lhs_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem project_lhs_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
theorem project_rhs_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
theorem project_rhs_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

/-- Aggregate times projection into zero, at `(n, o)`: the sum over the 64 channels. -/
theorem project_apply (A : FVec Ideal S1024x64 .bf16) (B : FVec Ideal S64x128 .bf16) (n : Fin 1024) (o : Fin 128) :
    matmul dot_S1024x64_S64x128_S1024x128_1_0_0_1_n_n none A B (constant S1024x128 .f32 0x00000000#32) (ix2 n o) = ∑ f : Fin 64, A (ix2 n f) * B (ix2 f o) :=
  Cert.LibPlainMatmul.matmul_zero_apply dot_S1024x64_S64x128_S1024x128_1_0_0_1_n_n none rfl rfl project_lhs_0 project_lhs_1 project_rhs_0 project_rhs_1 A B n o

/-! ## The stored value at an index -/

/-- The body's one stored value at `(u, n, o)`, from the four loaded blocks. -/
theorem stored_apply (v0 : Vec Ideal S1x1024x1024 .f32) (v3 : Vec Ideal S1x1024x64 .f32) (v8 : Vec Ideal S64x128 .f32) (v11 : Vec Ideal S128 .f32)
    (u : Fin 1) (n : Fin 1024) (o : Fin 128) :
    k0_pay1 (F := Ideal) v0 v3 v8 v11 (ix3 u n o)
      = max ((∑ f : Fin 64, (∑ k : Fin 1024, v0 (ix3 (0 : Fin 1) n k) * v3 (ix3 (0 : Fin 1) k f)) * v8 (ix2 f o)) + v11 (ix1 o))
          (Ideal.ofBits .f32 0x00000000#32) := by
  unfold k0_pay1
  rw [shapeCast_ab_1ab_apply, maximumf_apply, addf_apply, broadcast_apply, project_apply, broadcastTo_1b_ab_apply, shapeCast_a_1a_apply]
  simp only [truncf_apply, aggregate_apply, shapeCast_1ab_ab_apply]
  rfl

end Cert.KernelBlock

end
-- ==== Proof.GraphLayer.lean ====
/-
  One graph-convolution layer as a single function of its four argument arrays, at the ideal values.

  For node features `x : [32, 1024, 64]`, dense adjacencies `adj : [32, 1024, 1024]`, a projection `w : [64, 128]`
  and a bias `bias : [128]`, the layer's output at `(b, n, o)` is

    max ( (∑ f, (∑ k, adj (b, n, k) · x (b, k, f)) · w (f, o)) + bias o , 0 ):

  each node first sums its neighbours' features weighted by its adjacency row, the aggregate is projected, the bias
  added, and the result clamped below at zero. The zero is kept as the float pattern both programs print for it.
  No law of the extended reals is needed to join the two programs: both compute the two sums in this order.
-/
import Idealize.ShloMosaic.PureOps.Ideal
import Idealize.ShloMosaic.Lib.ValueIdx

noncomputable section

open scoped BigOperators
open Idealize.ShloMosaic Idealize.ShloMosaic.ValueIdx

namespace Cert.GraphLayer

/-- The features node `n` of graph `b` gathers in channel `f`: its adjacency row against the feature column. -/
def aggregate (x : FVec Ideal ⟨3, ![32, 1024, 64]⟩ .f32) (adj : FVec Ideal ⟨3, ![32, 1024, 1024]⟩ .f32)
    (b : Fin 32) (n : Fin 1024) (f : Fin 64) : EReal :=
  ∑ k : Fin 1024, adj (ix3 b n k) * x (ix3 b k f)

/-- The layer's output at `(b, n, o)`: the aggregate projected by `w`, plus the bias, clamped below at zero. -/
def layerAt (x : FVec Ideal ⟨3, ![32, 1024, 64]⟩ .f32) (adj : FVec Ideal ⟨3, ![32, 1024, 1024]⟩ .f32)
    (w : FVec Ideal ⟨2, ![64, 128]⟩ .f32) (bias : FVec Ideal ⟨1, ![128]⟩ .f32)
    (b : Fin 32) (n : Fin 1024) (o : Fin 128) : EReal :=
  max ((∑ f : Fin 64, aggregate x adj b n f * w (ix2 f o)) + bias (ix1 o)) (Ideal.ofBits .f32 0x00000000#32)

/-- The layer's whole output array. -/
def layer (x : FVec Ideal ⟨3, ![32, 1024, 64]⟩ .f32) (adj : FVec Ideal ⟨3, ![32, 1024, 1024]⟩ .f32)
    (w : FVec Ideal ⟨2, ![64, 128]⟩ .f32) (bias : FVec Ideal ⟨1, ![128]⟩ .f32) :
    FVec Ideal ⟨3, ![32, 1024, 128]⟩ .f32 :=
  fun i => layerAt x adj w bias (i 0) (i 1) (i 2)

theorem layer_apply (x : FVec Ideal ⟨3, ![32, 1024, 64]⟩ .f32) (adj : FVec Ideal ⟨3, ![32, 1024, 1024]⟩ .f32)
    (w : FVec Ideal ⟨2, ![64, 128]⟩ .f32) (bias : FVec Ideal ⟨1, ![128]⟩ .f32) (b : Fin 32) (n : Fin 1024) (o : Fin 128) :
    layer x adj w bias (ix3 b n o) = layerAt x adj w bias b n o := rfl

end Cert.GraphLayer

end
-- ==== Proof.KernelLayer.lean ====
/-
  The kernel's result array is the graph-convolution layer of its argument arrays.

  The grid has one point per graph. At point `t` the adjacency window and the feature window hold graph `t`'s slabs
  of their arrays (block index `(t, 0, 0)`), the projection and the bias windows hold their whole arrays (block index
  zero), and the output window's block is graph `t`'s slab of the result. So what point `t` writes back, read at
  `(u, n, o)`, is the body's stored value of those blocks, which is the layer at `(t, n, o)`: the point writes block
  `t` of the layer. Every index `(b, n, o)` of the result lies in the block of point `b`, so the blocks cover the array
  and the array ends holding the layer.
-/
import proofs.«147020_j64226940944904_1_alg».proof.Proof.Gen.KernelIdeal.Value
import proofs.«147020_j64226940944904_1_alg».proof.Proof.KernelBlock
import proofs.«147020_j64226940944904_1_alg».proof.Proof.GraphLayer

noncomputable section

open scoped BigOperators
open Idealize.ShloMosaic Idealize.ShloMosaic.TcCoe Idealize.SL.Sem Idealize.ShloMosaic.ValueIdx
open Idealize.ShloMosaic.Pipeline (Dat)

namespace Cert.KernelLayer

open Cert.KernelIdeal Cert.KernelIdeal.Gen Cert.KernelIdeal.Value

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The windows' block indices at each of the 32 points: the three per-graph windows sit at `(t, 0, 0)`, the two
    resident ones at zero. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-! ## The input blocks as pieces of the argument arrays -/

/-- The adjacency window's block at point `t` is graph `t`'s slab of the adjacency array. -/
theorem adjacency_block (c : Dev nD) (t : Fin cfg0.N) (b : Fin 32) (hb : b.val = t.val) (u : Fin 1) (n k : Fin 1024) :
    (iblk m c 0 t : Vec Ideal S1x1024x1024 .f32) (ix3 u n k) = (m ((c : Thread nD τ).loc main_arg1) : S32x1024x1024.Idx → Elt Ideal .f32) (ix3 b n k) := by
  obtain ⟨e0, e1, e2, -⟩ := block_indices t
  have hu : u.val = 0 := by omega
  unfold iblk
  rw [View.read_apply]
  show V m c main_arg1 _ = V m c main_arg1 _
  congr 1
  funext a
  apply Fin.ext
  match a with
  | ⟨0, _⟩ => show win0_0.index t (0 : Fin 3) * 1 + 1 * u.val = b.val; omega
  | ⟨1, _⟩ => show win0_0.index t (1 : Fin 3) * 1024 + 1 * n.val = n.val; omega
  | ⟨2, _⟩ => show win0_0.index t (2 : Fin 3) * 1024 + 1 * k.val = k.val; omega

/-- The feature window's block at point `t` is graph `t`'s slab of the feature array. -/
theorem feature_block (c : Dev nD) (t : Fin cfg0.N) (b : Fin 32) (hb : b.val = t.val) (u : Fin 1) (k : Fin 1024) (f : Fin 64) :
    (iblk m c 1 t : Vec Ideal S1x1024x64 .f32) (ix3 u k f) = (m ((c : Thread nD τ).loc main_arg0) : S32x1024x64.Idx → Elt Ideal .f32) (ix3 b k f) := by
  obtain ⟨-, -, -, e0, e1, e2, -⟩ := block_indices t
  have hu : u.val = 0 := by omega
  unfold iblk
  rw [View.read_apply]
  show V m c main_arg0 _ = V m c main_arg0 _
  congr 1
  funext a
  apply Fin.ext
  match a with
  | ⟨0, _⟩ => show win0_1.index t (0 : Fin 3) * 1 + 1 * u.val = b.val; omega
  | ⟨1, _⟩ => show win0_1.index t (1 : Fin 3) * 1024 + 1 * k.val = k.val; omega
  | ⟨2, _⟩ => show win0_1.index t (2 : Fin 3) * 64 + 1 * f.val = f.val; omega

/-- The projection window's block is the whole projection array, at every point. -/
theorem projection_block (c : Dev nD) (t : Fin cfg0.N) (f : Fin 64) (o : Fin 128) :
    (iblk m c 2 t : Vec Ideal S64x128 .f32) (ix2 f o) = (m ((c : Thread nD τ).loc main_arg2) : S64x128.Idx → Elt Ideal .f32) (ix2 f o) := by
  obtain ⟨-, -, -, -, -, -, e0, e1, -⟩ := block_indices t
  unfold iblk
  rw [View.read_apply]
  show V m c main_arg2 _ = V m c main_arg2 _
  congr 1
  funext a
  apply Fin.ext
  match a with
  | ⟨0, _⟩ => show win0_2.index t (0 : Fin 2) * 64 + 1 * f.val = f.val; omega
  | ⟨1, _⟩ => show win0_2.index t (1 : Fin 2) * 128 + 1 * o.val = o.val; omega

/-- The bias window's block is the whole bias array, at every point. -/
theorem bias_block (c : Dev nD) (t : Fin cfg0.N) (o : Fin 128) :
    (iblk m c 3 t : Vec Ideal S128 .f32) (ix1 o) = (m ((c : Thread nD τ).loc main_arg3) : S128.Idx → Elt Ideal .f32) (ix1 o) := by
  obtain ⟨-, -, -, -, -, -, -, -, e0, -⟩ := block_indices t
  unfold iblk
  rw [View.read_apply]
  show V m c main_arg3 _ = V m c main_arg3 _
  congr 1
  funext a
  apply Fin.ext
  match a with
  | ⟨0, _⟩ => show win0_3.index t (0 : Fin 1) * 128 + 1 * o.val = o.val; omega

/-! ## One graph's stored block is that graph's slab of the layer -/

/-- Whatever blocks the body loads: if the adjacency and feature blocks are graph `b`'s slabs of `A` and `X` and the
    other two blocks are `W` and `Bi`, the stored value at `(u, n, o)` is the layer of `X, A, W, Bi` at `(b, n, o)`. -/
theorem stored_eq_layer (x0 : Vec Ideal S1x1024x1024 .f32) (x1 : Vec Ideal S1x1024x64 .f32) (x2 : Vec Ideal S64x128 .f32) (x3 : Vec Ideal S128 .f32)
    (X : FVec Ideal ⟨3, ![32, 1024, 64]⟩ .f32) (A : FVec Ideal ⟨3, ![32, 1024, 1024]⟩ .f32)
    (W : FVec Ideal ⟨2, ![64, 128]⟩ .f32) (Bi : FVec Ideal ⟨1, ![128]⟩ .f32) (b : Fin 32)
    (h0 : ∀ n k : Fin 1024, x0 (ix3 (0 : Fin 1) n k) = A (ix3 b n k))
    (h1 : ∀ (k : Fin 1024) (f : Fin 64), x1 (ix3 (0 : Fin 1) k f) = X (ix3 b k f))
    (h2 : ∀ (f : Fin 64) (o : Fin 128), x2 (ix2 f o) = W (ix2 f o))
    (h3 : ∀ o : Fin 128, x3 (ix1 o) = Bi (ix1 o))
    (u : Fin 1) (n : Fin 1024) (o : Fin 128) :
    k0_pay1 (F := Ideal) x0 x1 x2 x3 (ix3 u n o) = Cert.GraphLayer.layer X A W Bi (ix3 b n o) := by
  rw [Cert.KernelBlock.stored_apply, Cert.GraphLayer.layer_apply]
  unfold Cert.GraphLayer.layerAt Cert.GraphLayer.aggregate
  simp only [h0, h1, h2, h3]

/-! ## From blocks to the array -/

/-- The layer of the argument arrays as launched, on core `c`. -/
abbrev result (c : Dev nD) : Buf (Elt Ideal) ((c : Thread nD τ).loc main_v0) :=
  Cert.GraphLayer.layer (m ((c : Thread nD τ).loc main_arg0)) (m ((c : Thread nD τ).loc main_arg1)) (m ((c : Thread nD τ).loc main_arg2)) (m ((c : Thread nD τ).loc main_arg3))

/-- What point `t` writes back is block `t` of the layer. -/
theorem flushed_eq (c : Dev nD) (t : Fin cfg0.N) :
    (dats m 0 c).flushed 4 t = ((cfg0.win 4).blk t).view.read (Elt Ideal) (result m c) := by
  have hN : cfg0.N = 32 := N_0
  have hb : t.val < 32 := by have := t.isLt; omega
  obtain ⟨-, -, -, -, -, -, -, -, -, e0, e1, e2⟩ := block_indices t
  rw [Value.flushed4]
  unfold out0_4
  rw [View.canon_unit_zero zero3]
  simp only [View.ld_unit_zero (S := S1x1024x1024) zero3, View.ld_unit_zero (S := S1x1024x64) zero3,
    View.ld_unit_zero (S := S64x128) zero2, View.ld_unit_zero (S := S128) zero1]
  refine funext fun (j : S1x1024x128.Idx) => ?_
  show k0_pay1 (F := Ideal) (iblk m c 0 t) (iblk m c 1 t) (iblk m c 2 t) (iblk m c 3 t) j = result m c (((cfg0.win 4).blk t).view.emb j)
  have hj0 : (j 0).val < 1 := (j 0).isLt
  have he : ((cfg0.win 4).blk t).view.emb j = ix3 (⟨t.val, hb⟩ : Fin 32) (j 1) (j 2) := by
    funext a
    apply Fin.ext
    match a with
    | ⟨0, _⟩ => show win0_4.index t (0 : Fin 3) * 1 + 1 * (j 0).val = t.val; omega
    | ⟨1, _⟩ => show win0_4.index t (1 : Fin 3) * 1024 + 1 * (j 1).val = (j 1).val; omega
    | ⟨2, _⟩ => show win0_4.index t (2 : Fin 3) * 128 + 1 * (j 2).val = (j 2).val; omega
  have key := stored_eq_layer (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3)) (⟨t.val, hb⟩ : Fin 32)
    (fun n k => adjacency_block m c t ⟨t.val, hb⟩ rfl 0 n k) (fun k f => feature_block m c t ⟨t.val, hb⟩ rfl 0 k f)
    (fun f o => projection_block m c t f o) (fun o => bias_block m c t o) (j 0) (j 1) (j 2)
  exact (congrArg (k0_pay1 (F := Ideal) (iblk m c 0 t) (iblk m c 1 t) (iblk m c 2 t) (iblk m c 3 t)) (eq_ix3 j)).trans
    (key.trans (congrArg (result m c) he.symm))

/-- An index of the result is in point `t`'s block iff each coordinate is in the block's range on its axis. -/
theorem mem_block (t : Fin cfg0.N) (i : S32x1024x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v0).slice (win0_4.rect t)).set ↔ _
  rw [View.set_slice_whole, Rect.mem_set_unit]
  exact Iff.rfl

/-- Every index `(b, n, o)` of the result lies in the block of point `b`, which writes back. -/
theorem cover (i : S32x1024x128.Idx) : ∃ t : Fin cfg0.N, (cfg0.win 4).flush t = true ∧ i ∈ ((cfg0.win 4).blk t).view.set := by
  have hN : cfg0.N = 32 := N_0
  have h0 : (i 0).val < 32 := (i 0).isLt
  have h1 : (i 1).val < 1024 := (i 1).isLt
  have h2 : (i 2).val < 128 := (i 2).isLt
  obtain ⟨t, ht⟩ : ∃ t : Fin cfg0.N, t.val = (i 0).val := ⟨⟨(i 0).val, by omega⟩, rfl⟩
  obtain ⟨-, -, -, -, -, -, -, -, -, e0, e1, e2⟩ := block_indices t
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- So the result array ends holding the layer of the arguments. -/
theorem final (c : Dev nD) : (dats m 0 c).arrAt 4 cfg0.N = result m c :=
  (dats m 0 c).arrAt_eq_of_cover 4 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelLayer

end
-- ==== Proof.ReferenceLayer.lean ====
/-
  The reference program's result is the graph-convolution layer of its arguments.

  Read one operation at a time, the reference's last value at `(b, n, o)` is the maximum of zero and the bias at `o` added
  to the sum over the 64 channels `f` of the first product at `(b, n, f)` times the projection at `(f, o)`; the first
  product at `(b, n, f)` is the sum over the 1024 nodes `k` of the adjacency at `(b, n, k)` times the features at
  `(b, k, f)`. These are the layer's two sums in the layer's order, so after the operand indices of the two products and
  of the two broadcasts are written by coordinates nothing is left to prove.
-/
import proofs.«147020_j64226940944904_1_alg».proof.Proof.Gen.ReferenceIdeal.Read
import proofs.«147020_j64226940944904_1_alg».proof.Proof.GraphLayer

noncomputable section

open scoped BigOperators
open Idealize.ShloMosaic Idealize.ShloMosaic.ValueIdx

namespace Cert.ReferenceLayer

open Cert.ReferenceIdeal Cert.ReferenceIdeal.Gen Cert.ReferenceIdeal.Read

/-- The projection reads the aggregate at the output's graph and node and at the contracted channel, -/
theorem project_lhs (b : Fin 32) (n : Fin 1024) (o : Fin 128) (f : Fin 64) : lidx_main_v1 (ix3 b n o) f = ix3 b n f :=
  funext fun a => match a with | ⟨0, _⟩ => rfl | ⟨1, _⟩ => rfl | ⟨2, _⟩ => rfl

/-- and the projection matrix at that channel and the output's column. -/
theorem project_rhs (b : Fin 32) (n : Fin 1024) (o : Fin 128) (f : Fin 64) : ridx_main_v1 (ix3 b n o) f = ix2 f o :=
  funext fun a => match a with | ⟨0, _⟩ => rfl | ⟨1, _⟩ => rfl

/-- The aggregation reads the adjacency at the output's graph and node and at the contracted neighbour, -/
theorem aggregate_lhs (b : Fin 32) (n : Fin 1024) (f : Fin 64) (k : Fin 1024) : lidx_main_v0 (ix3 b n f) k = ix3 b n k :=
  funext fun a => match a with | ⟨0, _⟩ => rfl | ⟨1, _⟩ => rfl | ⟨2, _⟩ => rfl

/-- and the features at that graph, that neighbour and the output's channel. -/
theorem aggregate_rhs (b : Fin 32) (n : Fin 1024) (f : Fin 64) (k : Fin 1024) : ridx_main_v0 (ix3 b n f) k = ix3 b k f :=
  funext fun a => match a with | ⟨0, _⟩ => rfl | ⟨1, _⟩ => rfl | ⟨2, _⟩ => rfl

/-- The bias, broadcast twice, is read at the output's column. -/
theorem bias_idx (b : Fin 32) (n : Fin 1024) (o : Fin 128) : idx_main_v2 (idx_main_v3 (ix3 b n o)) = ix1 o :=
  funext fun a => match a with | ⟨0, _⟩ => rfl

/-- The reference's result, as a function of its four arguments, is the layer. -/
theorem result_eq_layer (x0 : (⟨S32x1024x64, .f32⟩ : BufTy).Contents (Elt Ideal)) (x1 : (⟨S32x1024x1024, .f32⟩ : BufTy).Contents (Elt Ideal))
    (x2 : (⟨S64x128, .f32⟩ : BufTy).Contents (Elt Ideal)) (x3 : (⟨S128, .f32⟩ : BufTy).Contents (Elt Ideal)) :
    val_main_v5 (F := Ideal) x0 x1 x2 x3 = Cert.GraphLayer.layer x0 x1 x2 x3 := by
  funext i
  obtain ⟨b, n, o, rfl⟩ : ∃ (b : Fin 32) (n : Fin 1024) (o : Fin 128), i = ix3 b n o := ⟨i 0, i 1, i 2, eq_ix3 i⟩
  rw [Cert.GraphLayer.layer_apply, val_main_v5_apply, val_main_v4_apply, val_main_v1_apply, val_main_v3_apply, val_main_v2_apply,
    val_main_call0_v0_apply, val_main_call0_cst_apply]
  simp only [project_lhs, project_rhs, val_main_v0_apply, aggregate_lhs, aggregate_rhs, bias_idx,
    Ideal.maximumf_def, Ideal.addf_def, Ideal.ofBits_def]
  rfl

end Cert.ReferenceLayer

end
-- ==== Proof.lean ====
/-
  One graph-convolution layer, `relu ((adj · x) · w + bias)` over 32 graphs of 1024 nodes, 64 input and 128 output
  channels: a kernel that handles one graph per grid point against the plain batched reference.

  At the ideal values both programs compute, at `(b, n, o)`,

    max ( (∑ f, (∑ k, adj (b, n, k) · x (b, k, f)) · w (f, o)) + bias o , 0 )

  (`Cert.GraphLayer.layer`). The kernel rounds its operands and its aggregate to a narrower float format before each
  product; at the ideal values a change of format is the identity, and a product into a zero accumulator is the plain sum
  over the contracted axis, so its stored block is the layer's slab for that graph (`Cert.KernelBlock.stored_apply`,
  `Cert.KernelLayer.flushed_eq`) and its 32 blocks tile the result (`Cert.KernelLayer.final`). The reference's two
  products, read at an index, are the same two sums in the same order (`Cert.ReferenceLayer.result_eq_layer`). No
  rearrangement of sums is involved, so the inputs' finiteness is never used.

  The three frames are the generated ones (the reference's is its run with the result dropped); the idealization
  rewrote nothing, so `preserves` is trivial.
-/
import proofs.«147020_j64226940944904_1_alg».proof.Defs
import proofs.«147020_j64226940944904_1_alg».proof.Proof.Gen.Kernel
import proofs.«147020_j64226940944904_1_alg».proof.Proof.Gen.Kernel.Skeleton
import proofs.«147020_j64226940944904_1_alg».proof.Proof.Gen.Kernel.Launch
import proofs.«147020_j64226940944904_1_alg».proof.Proof.Gen.Kernel.Points
import proofs.«147020_j64226940944904_1_alg».proof.Proof.Gen.Kernel.Frame
import proofs.«147020_j64226940944904_1_alg».proof.Proof.Gen.KernelIdeal
import proofs.«147020_j64226940944904_1_alg».proof.Proof.Gen.KernelIdeal.Skeleton
import proofs.«147020_j64226940944904_1_alg».proof.Proof.Gen.KernelIdeal.Launch
import proofs.«147020_j64226940944904_1_alg».proof.Proof.Gen.KernelIdeal.Points
import proofs.«147020_j64226940944904_1_alg».proof.Proof.Gen.KernelIdeal.Frame
import proofs.«147020_j64226940944904_1_alg».proof.Proof.Gen.ReferenceIdeal
import proofs.«147020_j64226940944904_1_alg».proof.Proof.Gen.Pre_finite_inputs
import proofs.«147020_j64226940944904_1_alg».proof.Proof.Gen.KernelIdeal.Value
import proofs.«147020_j64226940944904_1_alg».proof.Proof.Gen.ReferenceIdeal.Run
import proofs.«147020_j64226940944904_1_alg».proof.Proof.Gen.ReferenceIdeal.Read
import proofs.«147020_j64226940944904_1_alg».proof.Proof.KernelLayer
import proofs.«147020_j64226940944904_1_alg».proof.Proof.ReferenceLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of arguments that agree. -/
theorem algebraic : Cert.algebraic_KernelIdeal_ReferenceIdeal := by
  intro m ρ m' ρ' _ hagree
  refine ⟨fun c => Cert.KernelLayer.result m c, Cert.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceLayer.result_eq_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
